-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S1x4096x4096 : Shape := ⟨3, ![1, 4096, 4096]⟩
abbrev S1x4096 : Shape := ⟨2, ![1, 4096]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S1x4096x4096 : S_.BroadcastsInDim S1x4096x4096 (![] : Fin 0 → Fin S1x4096x4096.rank)
  reducesTo_S1x4096x4096_S_d0_1_2 : S1x4096x4096.ReducesTo [0, 1, 2] S_
  bcast_S_S1x4096 : S_.BroadcastsInDim S1x4096 (![] : Fin 0 → Fin S1x4096.rank)
  reducesTo_S1x4096_S_d0_1 : S1x4096.ReducesTo [0, 1] S_

variable [Facts]

def fn {F : FTy → Type} [FloatOps F] (main_arg0 : FVec F S4096x4096 .f32) (main_arg1 : FVec F S1x4096x4096 .f32) (main_arg2 : FVec F S1x4096 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S1x4096x4096 .f32 := Host.absf main_arg1
  let main_cst_0 : FVec F S_ .f32 := constant S_ .f32 0x7F800000#32
  let main_v5 : FVec F S1x4096x4096 .f32 := broadcastInDim S1x4096x4096 ![] bcast_S_S1x4096x4096 main_cst_0
  let main_v6 : IVec S1x4096x4096 1 := cmpf .olt main_v4 main_v5
  let main_c_1 : IVec S_ 1 := constantI S_ 1 1#1
  let main_v7 : IVec S_ 1 := (fun x v => Host.reduce IntOp.andi x v reducesTo_S1x4096x4096_S_d0_1_2 h_S_) main_v6 main_c_1
  let main_v8 : IVec S_ 1 := andi main_v3 main_v7
  let main_v9 : FVec F S1x4096 .f32 := Host.absf main_arg2
  let main_cst_2 : FVec F S_ .f32 := constant S_ .f32 0x7F800000#32
  let main_v10 : FVec F S1x4096 .f32 := broadcastInDim S1x4096 ![] bcast_S_S1x4096 main_cst_2
  let main_v11 : IVec S1x4096 1 := cmpf .olt main_v9 main_v10
  let main_c_3 : IVec S_ 1 := constantI S_ 1 1#1
  let main_v12 : IVec S_ 1 := (fun x v => Host.reduce IntOp.andi x v reducesTo_S1x4096_S_d0_1 h_S_) main_v11 main_c_3
  let main_v13 : IVec S_ 1 := andi main_v8 main_v12
  main_v13
-- ==== Kernel.lean ====
abbrev S4096x4096 : Shape := ⟨2, ![4096, 4096]⟩
abbrev S1x4096x4096 : Shape := ⟨3, ![1, 4096, 4096]⟩
abbrev S1x4096 : Shape := ⟨2, ![1, 4096]⟩
abbrev S1024x512 : Shape := ⟨2, ![1024, 512]⟩
abbrev S512x1024 : Shape := ⟨2, ![512, 1024]⟩
abbrev S1x1024 : Shape := ⟨2, ![1, 1024]⟩
abbrev S1024x1024 : Shape := ⟨2, ![1024, 1024]⟩

abbrev nBuf : Space → Nat
  | .hbm => 5
  | .vmem => 9
  | .smem => 0
  | _ => 0

abbrev bufTy : (tb : Table) → Fin (tcTables nBuf tb) → BufTy
  | .hbm, ⟨0, _⟩ => ⟨S4096x4096, .f32⟩
  | .hbm, ⟨1, _⟩ => ⟨S1x4096x4096, .f32⟩
  | .hbm, ⟨2, _⟩ => ⟨S1x4096, .f32⟩
  | .hbm, ⟨3, _⟩ => ⟨S4096x4096, .f32⟩
  | .hbm, ⟨4, _⟩ => ⟨S4096x4096, .f32⟩
  | .local _ .vmem, ⟨0, _⟩ => ⟨S1024x512, .f32⟩
  | .local _ .vmem, ⟨1, _⟩ => ⟨S1024x512, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 8], ![false, false, false]⟩

def k0_cond2 (i : grid0.Coords) : BitVec 1 :=
  let arg2 : BitVec 32 := BitVec.ofNat 32 (i 2).val
  let c7_i32 : BitVec 32 := 7#32
  let v14 : BitVec 1 := Scalar.cmpi .eq arg2 c7_i32
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  shapeCasts_S1x4096x4096_S4096x4096 : S1x4096x4096.ShapeCasts S4096x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x512_S1024x512_0_0 : ∀ a, (![0, 0] : Fin 2 → Nat) a + S1024x512.size a ≤ S1024x512.size a
  h_S1024x512 : 0 < S1024x512.numel
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1x1024_S1x1024_0_0 : ∀ a, (![0, 0] : Fin 2 → Nat) a + S1x1024.size a ≤ S1x1024.size a
  h_S1x1024 : 0 < S1x1024.numel
  broadcasts_S1x1024_S1024x1024 : S1x1024.Broadcasts S1024x1024
  dot_S1024x512_S512x1024_S1024x1024_1_0_0_1_n_n_wf : DotDims.WF S1024x512 S512x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S4096x4096.size a
  hwx0_0 : ∀ i : grid0.Coords, EltTy.bits .f32 = 32 ∨ (Rect.block (s := S4096x4096) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S4096x4096.size a
  hwx0_1 : ∀ i : grid0.Coords, EltTy.bits .f32 = 32 ∨ (Rect.block (s := S4096x4096) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S4096x4096.size a
  hwx0_3 : ∀ i : grid0.Coords, EltTy.bits .f32 = 32 ∨ (Rect.block (s := S4096x4096) S1024x1024.size (cc0_transform_3 i) (hinb0_3 i)).WholeWords (EltTy.packing .f32)

variable [Facts₀]

def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4096x4096 : Shape := ⟨2, ![4096, 4096]⟩
abbrev S1x4096x4096 : Shape := ⟨3, ![1, 4096, 4096]⟩
abbrev S1x4096 : Shape := ⟨2, ![1, 4096]⟩

abbrev nBuf : Space → Nat
  | .hbm => 7
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S1x4096x4096, .f32⟩
  | .hbm, ⟨2, _⟩ => ⟨S1x4096, .f32⟩
  | .hbm, ⟨3, _⟩ => ⟨S4096x4096, .f32⟩
  | .hbm, ⟨4, _⟩ => ⟨S4096x4096, .f32⟩
  | .hbm, ⟨5, _⟩ => ⟨S4096x4096, .f32⟩
  | .hbm, ⟨6, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]

class Facts₀ : Prop where
  shapeCasts_S1x4096x4096_S4096x4096 : S1x4096x4096.ShapeCasts S4096x4096
  bcast_S1x4096_S4096x4096_0_1 : S1x4096.BroadcastsInDim S4096x4096 (![0, 1] : Fin 2 → Fin S4096x4096.rank)
  dot_S4096x4096_S4096x4096_S4096x4096_1_0_0_1_n_n_wf : DotDims.WF S4096x4096 S4096x4096 S4096x4096 [1] [0] [0] [1] [] []

variable [Facts₀]

def dot_S4096x4096_S4096x4096_S4096x4096_1_0_0_1_n_n : DotDims S4096x4096 S4096x4096 S4096x4096 where
  lhsContracting := [1]
  rhsContracting := [0]
  lhsNonContracting := [0]
  rhsNonContracting := [1]
  lhsBatch := []
  rhsBatch := []
  wf := dot_S4096x4096_S4096x4096_S4096x4096_1_0_0_1_n_n_wf

class Facts : Prop extends Facts₀ where

variable [Facts]
-- ==== Proof.Pieces.lean ====
/-
  What each control case of the body leaves behind, as the body's arithmetic.

  The body has three cases along the reduction axis of the grid. At the first block of a run (k = 0) it stores zero
  into the accumulator, reads it back and stores "accumulator + x-block · w-block". At a middle block it only does
  the update, over what the block before left. At the last block (k = 7) it does the update and then stores
  "accumulator + bias row" into the output block. The run of each case records the stores as pieces; read back, they are:
    first block :  accumulator := update x w zero
    middle block:  accumulator := update x w (previous accumulator)
    last block  :  accumulator := update x w (previous accumulator);  output := that + bias
  where `update` is the second payload, `zero` the first and "+ bias" the third. These hold at any float instance.
-/
import proofs.«165226_j40321152975111_1_alg».proof.Proof.Gen.KernelIdeal.Frame
import Idealize.ShloMosaic.Lib.Pipeline.Value
import Idealize.ShloMosaic.Lib.Tactic

set_option maxRecDepth 16384

noncomputable section

namespace Cert.KernelIdeal.Pieces

open Cert.KernelIdeal Cert.KernelIdeal.Gen Idealize.ShloMosaic Idealize.ShloMosaic.TcCoe Idealize.ShloMosaic.Tactic Idealize.SL.Sem

variable {F : FTy → Type} [FloatOps F]

/-- The offset of every load and store of the body: the origin. -/
theorem origin2 : (![0, 0] : Fin 2 → Nat) = fun _ => 0 := by
  funext a
  match a with
  | ⟨0, _⟩ => rfl
  | ⟨1, _⟩ => rfl

/-- First block of a run: the accumulator ends at the update over zero. -/
theorem scratch_first (c : Dev nD) (i : grid0.Coords) (arg3 : Memref sig .tc .vmem S1024x512 .f32) (harg3 : arg3.IsWhole) (arg4 : Memref sig .tc .vmem S512x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond0_0 i) (hc1 : ¬cond0_1 i)
    (x0 : Vec F S1024x512 .f32) (x1 : Vec F S512x1024 .f32) (x2 : Vec F S1x1024 .f32) :
    sout0_A_0 c i arg3 harg3 arg4 harg4 arg5 harg5 arg6 harg6 arg7 harg7 hc0 hc1 x0 x1 x2 = k0_pay2 x0 x1 k0_pay1 := by
  unfold sout0_A_0
  rw [View.read_writes_eq_canon _ _ _ (scover0_A_0 c i arg3 harg3 arg4 harg4 arg5 harg5 arg6 harg6 arg7 harg7 hc0 hc1 x0 x1 x2)]
  unfold kernelRun0_A
  dsimp only
  sl_unfold_words
  rw [View.canon_cons_unit_zero (S := S1024x1024) origin2, View.readCov_unit_zero (S := S1024x1024) _ origin2]
  simp only [View.readAt_eq_ld, harg3.read_unread, harg4.read_unread, View.ld_unit_zero (S := S1024x512) origin2,
    View.ld_unit_zero (S := S512x1024) origin2]

/-- Middle block: the accumulator ends at the update over what the block before left. -/
theorem scratch_middle (c : Dev nD) (i : grid0.Coords) (arg3 : Memref sig .tc .vmem S1024x512 .f32) (harg3 : arg3.IsWhole) (arg4 : Memref sig .tc .vmem S512x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : ¬cond0_1 i)
    (x0 : Vec F S1024x512 .f32) (x1 : Vec F S512x1024 .f32) (x2 : Vec F S1x1024 .f32) (xs0 : Vec F S1024x1024 .f32) :
    sout0_B_0 c i arg3 harg3 arg4 harg4 arg5 harg5 arg6 harg6 arg7 harg7 hc0 hc1 x0 x1 x2 xs0 = k0_pay2 x0 x1 xs0 := by
  unfold sout0_B_0
  rw [View.read_writes_eq_canon _ _ _ (scover0_B_0 c i arg3 harg3 arg4 harg4 arg5 harg5 arg6 harg6 arg7 harg7 hc0 hc1 x0 x1 x2 xs0)]
  unfold kernelRun0_B
  dsimp only
  sl_unfold_words
  rw [View.canon_unit_zero (S := S1024x1024) origin2]
  simp only [View.readAt_eq_ld, harg3.read_unread, harg4.read_unread, harg7.read_unread, View.ld_unit_zero (S := S1024x512) origin2,
    View.ld_unit_zero (S := S512x1024) origin2, View.ld_unit_zero (S := S1024x1024) origin2]

/-- Last block: the accumulator ends at the update over what the block before left. -/
theorem scratch_last (c : Dev nD) (i : grid0.Coords) (arg3 : Memref sig .tc .vmem S1024x512 .f32) (harg3 : arg3.IsWhole) (arg4 : Memref sig .tc .vmem S512x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : cond0_1 i)
    (x0 : Vec F S1024x512 .f32) (x1 : Vec F S512x1024 .f32) (x2 : Vec F S1x1024 .f32) (xs0 : Vec F S1024x1024 .f32) :
    sout0_C_0 c i arg3 harg3 arg4 harg4 arg5 harg5 arg6 harg6 arg7 harg7 hc0 hc1 x0 x1 x2 xs0 = k0_pay2 x0 x1 xs0 := by
  unfold sout0_C_0
  rw [View.read_writes_eq_canon _ _ _ (scover0_C_0 c i arg3 harg3 arg4 harg4 arg5 harg5 arg6 harg6 arg7 harg7 hc0 hc1 x0 x1 x2 xs0)]
  unfold kernelRun0_C
  dsimp only
  sl_unfold_words
  rw [View.canon_unit_zero (S := S1024x1024) origin2]
  simp only [View.readAt_eq_ld, harg3.read_unread, harg4.read_unread, harg7.read_unread, View.ld_unit_zero (S := S1024x512) origin2,
    View.ld_unit_zero (S := S512x1024) origin2, View.ld_unit_zero (S := S1024x1024) origin2]

/-- Last block: the output block ends at that accumulator plus the bias row. -/
theorem output_last (c : Dev nD) (i : grid0.Coords) (arg3 : Memref sig .tc .vmem S1024x512 .f32) (harg3 : arg3.IsWhole) (arg4 : Memref sig .tc .vmem S512x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : cond0_1 i)
    (x0 : Vec F S1024x512 .f32) (x1 : Vec F S512x1024 .f32) (x2 : Vec F S1x1024 .f32) (xs0 : Vec F S1024x1024 .f32) :
    out0_C_3 c i arg3 harg3 arg4 harg4 arg5 harg5 arg6 harg6 arg7 harg7 hc0 hc1 x0 x1 x2 xs0 = k0_pay3 (k0_pay2 x0 x1 xs0) x2 := by
  unfold out0_C_3
  rw [View.read_writes_eq_canon _ _ _ (cover0_C_3 c i arg3 harg3 arg4 harg4 arg5 harg5 arg6 harg6 arg7 harg7 hc0 hc1 x0 x1 x2 xs0)]
  unfold kernelRun0_C
  dsimp only
  sl_unfold_words
  rw [View.canon_unit_zero (S := S1024x1024) origin2]
  simp only [View.readAt_eq_ld, harg3.read_unread, harg4.read_unread, harg5.read_unread, harg7.read_unread,
    View.ld_unit_zero (S := S1024x512) origin2, View.ld_unit_zero (S := S512x1024) origin2,
    View.ld_unit_zero (S := S1024x1024) origin2, View.ld_unit_zero (S := S1x1024) origin2,
    View.readCov_unit_zero (S := S1024x1024) _ origin2]

end Cert.KernelIdeal.Pieces

end
-- ==== Proof.LibPlainDot.lean ====
/-
  A plain matrix product read at an entry.

  For the dimension numbers `⟨[1], [0], [0], [1], [], []⟩` (an M×K operand times a K×N operand, no batch axis), the
  product accumulated into a zero array has, at entry (p, q), the value Σ_k lhs (p, k) · rhs (k, q) on the extended
  reals: no rounding and no order of summation is left in it. The statement is generic in the three extents and in the
  operands' float formats (a change of format is the identity on the extended reals), so it serves every plain product
  of a kernel body; a printed dimension record with these six lists IS `DotDims.plain M K N` (its well-formedness
  proof is a proposition), so the lemma applies to it as it stands.
-/
import Idealize.ShloMosaic.PureOps.Ideal.Laws
import Idealize.ShloMosaic.Lib.ValueIdx

namespace Idealize.ShloMosaic.PlainDot

open Idealize.ShloMosaic Idealize.ShloMosaic.ValueIdx

/-- The left operand's row coordinate at output entry `i` is `i`'s row. -/
theorem lhs_row (M K N : Nat) (i : (⟨2, ![M, N]⟩ : Shape).Idx) (c : (DotDims.plain M K N).contr.Idx) :
    ((DotDims.plain M K N).lhsIdx i c 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

/-- The left operand's column coordinate is the contraction index. -/
theorem lhs_col (M K N : Nat) (i : (⟨2, ![M, N]⟩ : Shape).Idx) (c : (DotDims.plain M K N).contr.Idx) :
    ((DotDims.plain M K N).lhsIdx i c 1).val = (c ⟨0, Nat.one_pos⟩).val :=
  (DotDims.plain M K N).lhsIdx_val_of_single rfl i c

/-- The right operand's row coordinate is the contraction index. -/
theorem rhs_row (M K N : Nat) (i : (⟨2, ![M, N]⟩ : Shape).Idx) (c : (DotDims.plain M K N).contr.Idx) :
    ((DotDims.plain M K N).rhsIdx i c 0).val = (c ⟨0, Nat.one_pos⟩).val :=
  (DotDims.plain M K N).rhsIdx_val_of_single rfl i c

/-- The right operand's column coordinate at output entry `i` is `i`'s column. -/
theorem rhs_col (M K N : Nat) (i : (⟨2, ![M, N]⟩ : Shape).Idx) (c : (DotDims.plain M K N).contr.Idx) :
    ((DotDims.plain M K N).rhsIdx i c 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- A plain M×K by K×N product into the zero array, at entry (p, q), is `Σ_k lhs (p, k) · rhs (k, q)`. -/
theorem matmul_zero_apply {φ₁ φ₂ : FTy} (M K N : Nat) (lhs : FVec Ideal ⟨2, ![M, K]⟩ φ₁) (rhs : FVec Ideal ⟨2, ![K, N]⟩ φ₂)
    (p : Fin M) (q : Fin N) :
    FloatOps.matmul (DotDims.plain M K N) none lhs rhs (constant ⟨2, ![M, N]⟩ .f32 0x00000000#32) (ix2 p q)
      = ∑ k : Fin K, lhs (ix2 p k) * rhs (ix2 k q) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs_row M K N _ _
      | ⟨1, _⟩ => exact (lhs_col M K N _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs_row M K N _ _).trans hk
      | ⟨1, _⟩ => exact rhs_col M K N _ _)
  rw [el, er]

end Idealize.ShloMosaic.PlainDot
-- ==== Proof.Payload.lean ====
/-
  The body's three payloads read at an entry, on the extended reals.

  `zero` is 0 everywhere. The `update` of an accumulator by an x-block [1024, 512] and a w-block [512, 1024] is, at
  entry (p, q), the accumulator there plus Σ_{k < 512} x (p, k) · w (k, q): the narrowing of both blocks to bf16 before
  the product is the identity on the extended reals, the product is taken into a zero array, and the identity reshapes
  around it do nothing. The epilogue adds the bias block's one row: at (p, q), the accumulator plus bias (0, q).
-/
import proofs.«165226_j40321152975111_1_alg».proof.Proof.Gen.KernelIdeal.Skeleton
import proofs.«165226_j40321152975111_1_alg».proof.Proof.LibPlainDot
import Idealize.ShloMosaic.Lib.Pipeline.Value
import Idealize.ShloMosaic.Lib.ValueLayout
import Idealize.ShloMosaic.Lib.ValueIdx
import Idealize.ShloMosaic.PureOps.Ideal.Laws

noncomputable section

namespace Cert.KernelIdeal.Payload

open Cert.KernelIdeal Cert.KernelIdeal.Gen Idealize.ShloMosaic Idealize.ShloMosaic.ValueIdx

/-- The zero payload is 0 at every entry. -/
theorem zero_apply (j : S1024x1024.Idx) : k0_pay1 (F := Ideal) j = 0 := by
  unfold k0_pay1
  simp only [shapeCast_self]
  exact Ideal.ofBits_zero_f32

/-- The update at entry (p, q): the accumulator there plus the block product's entry. -/
theorem update_apply (x0 : Vec Ideal S1024x512 .f32) (x1 : Vec Ideal S512x1024 .f32) (acc : Vec Ideal S1024x1024 .f32)
    (p q : Fin 1024) :
    k0_pay2 (F := Ideal) x0 x1 acc (ix2 p q) = acc (ix2 p q) + ∑ k : Fin 512, x0 (ix2 p k) * x1 (ix2 k q) := by
  unfold k0_pay2
  simp only [shapeCast_self]
  exact congrArg (acc (ix2 p q) + ·)
    (PlainDot.matmul_zero_apply 1024 512 1024 (truncf .bf16 x0 bitsLt_bf16_f32) (truncf .bf16 x1 bitsLt_bf16_f32) p q)

/-- The epilogue at entry (p, q): the accumulator there plus the bias row at column q. -/
theorem bias_apply (acc : Vec Ideal S1024x1024 .f32) (b : Vec Ideal S1x1024 .f32) (p q : Fin 1024) :
    k0_pay3 (F := Ideal) acc b (ix2 p q) = acc (ix2 p q) + b (ix2 (0 : Fin 1) q) := by
  unfold k0_pay3
  exact congrArg (acc (ix2 p q) + ·) (broadcastTo_1b_ab_apply b broadcasts_S1x1024_S1024x1024 p q)

end Cert.KernelIdeal.Payload

end
-- ==== Proof.Spec.lean ====
/-
  The dense layer as one function of its arguments, and an array entry named by natural coordinates.

  `dense x w b` at entry (r, c) is (Σ_{k < 4096} x (r, k) · w (k, c)) + b (0, c) on the extended reals: the
  matrix product of the activations with the weight matrix, plus the bias row repeated down the rows.
  `at2 x a b` reads a rank-2 array at natural coordinates (zero outside the array); it lets a block's entry be
  named by "block offset + coordinate inside the block" without carrying a bound proof in the term.
-/
import Idealize.ShloMosaic.PureOps.Ideal
import Idealize.ShloMosaic.Lib.ValueIdx

noncomputable section

namespace Cert.Dense

open Idealize.ShloMosaic Idealize.ShloMosaic.ValueIdx

/-- The entry of a rank-2 array at natural coordinates (a, b); zero when (a, b) lies outside it. -/
def at2 {R C : Nat} (x : (⟨2, ![R, C]⟩ : Shape).Idx → EReal) (a b : Nat) : EReal :=
  if h : a < R ∧ b < C then x (ix2 ⟨a, h.1⟩ ⟨b, h.2⟩) else 0

/-- An index whose coordinates are (a, b) reads `at2 x a b`. -/
theorem at2_of_val {R C : Nat} (x : (⟨2, ![R, C]⟩ : Shape).Idx → EReal) (j : (⟨2, ![R, C]⟩ : Shape).Idx) (a b : Nat)
    (ha : (j 0).val = a) (hb : (j 1).val = b) : x j = at2 x a b := by
  subst ha hb
  unfold at2
  rw [dif_pos ⟨(j 0).isLt, (j 1).isLt⟩]
  exact congrArg x (eq_ix2 j)

/-- In particular at `ix2 p q`. -/
theorem at2_ix2 {R C : Nat} (x : (⟨2, ![R, C]⟩ : Shape).Idx → EReal) (p : Fin R) (q : Fin C) :
    x (ix2 p q) = at2 x p.val q.val := at2_of_val x (ix2 p q) p.val q.val rfl rfl

/-- The dense layer: activations [4096, 4096] times weights [4096, 4096], plus the bias row [1, 4096]. -/
def dense (x w : (⟨2, ![4096, 4096]⟩ : Shape).Idx → EReal) (b : (⟨2, ![1, 4096]⟩ : Shape).Idx → EReal) :
    (⟨2, ![4096, 4096]⟩ : Shape).Idx → EReal :=
  fun i => (∑ k : Fin 4096, x (ix2 (i 0) k) * w (ix2 k (i 1))) + b (ix2 0 (i 1))

/-- The same entry with every array read at natural coordinates. -/
theorem dense_apply_at2 (x w : (⟨2, ![4096, 4096]⟩ : Shape).Idx → EReal) (b : (⟨2, ![1, 4096]⟩ : Shape).Idx → EReal)
    (i : (⟨2, ![4096, 4096]⟩ : Shape).Idx) :
    dense x w b i = (∑ k : Fin 4096, at2 x (i 0).val k.val * at2 w k.val (i 1).val) + at2 b 0 (i 1).val := by
  unfold dense
  rw [at2_ix2 b 0 (i 1)]
  exact congrArg (· + at2 b 0 (i 1).val) (Finset.sum_congr rfl fun k _ => by rw [at2_ix2 x (i 0) k, at2_ix2 w k (i 1)])

end Cert.Dense

end
-- ==== Proof.Blocks.lean ====
/-
  Which entries of the whole arrays a grid point's blocks hold.

  The grid is 4 × 4 × 8 over (row block I, column block J, reduction block K); point number t is 32·I + 8·J + K, so
  I = t / 32, J = t / 8 % 4, K = t % 8. At point t the activation block is rows [1024·I, 1024·I + 1024) and columns
  [512·K, 512·K + 512) of x; the weight block is rows [512·K, …) and columns [1024·J, …) of the reshaped weights; the
  bias block is columns [1024·J, …) of the bias row; the output block is rows [1024·I, …), columns [1024·J, …). An
  entry of a block is the array's entry at "block index × block extent + coordinate inside the block" on each axis.
-/
import proofs.«165226_j40321152975111_1_alg».proof.Proof.Gen.KernelIdeal.Value
import proofs.«165226_j40321152975111_1_alg».proof.Proof.Spec
import Idealize.ShloMosaic.Lib.Pipeline.Value

noncomputable section

namespace Cert.KernelIdeal.Blocks

open Cert.KernelIdeal Cert.KernelIdeal.Gen Idealize.ShloMosaic Idealize.ShloMosaic.TcCoe Idealize.SL.Sem
open Idealize.ShloMosaic.ValueIdx Cert.Dense

variable (m : (ℓ : Loc nD τ sig) → Buf (Elt Ideal) ℓ)

abbrev xblk (c : Dev nD) (t : Fin cfg0.N) : Vec Ideal S1024x512 .f32 := iblk m c 0 t
abbrev wblk (c : Dev nD) (t : Fin cfg0.N) : Vec Ideal S512x1024 .f32 := iblk m c 1 t
abbrev bblk (c : Dev nD) (t : Fin cfg0.N) : Vec Ideal S1x1024 .f32 := iblk m c 2 t
abbrev xarr (c : Dev nD) : Vec Ideal S4096x4096 .f32 := V m c main_arg0
abbrev warr (c : Dev nD) : Vec Ideal S4096x4096 .f32 := V m c main_v0
abbrev barr (c : Dev nD) : Vec Ideal S1x4096 .f32 := V m c main_arg2

/-! ## The windows' block indices, decided once over the 128 grid points -/

theorem x_index : ∀ t : Fin cfg0.N, win0_0.index t (0 : Fin 2) = t.val / 32 ∧ win0_0.index t (1 : Fin 2) = t.val % 8 :=
  (by decide +kernel : ∀ t : Fin grid0.N, _)

theorem w_index : ∀ t : Fin cfg0.N, win0_1.index t (0 : Fin 2) = t.val % 8 ∧ win0_1.index t (1 : Fin 2) = t.val / 8 % 4 :=
  (by decide +kernel : ∀ t : Fin grid0.N, _)

theorem b_index : ∀ t : Fin cfg0.N, win0_2.index t (0 : Fin 2) = 0 ∧ win0_2.index t (1 : Fin 2) = t.val / 8 % 4 :=
  (by decide +kernel : ∀ t : Fin grid0.N, _)

theorem o_index : ∀ t : Fin cfg0.N, win0_3.index t (0 : Fin 2) = t.val / 32 ∧ win0_3.index t (1 : Fin 2) = t.val / 8 % 4 :=
  (by decide +kernel : ∀ t : Fin grid0.N, _)

/-! ## The input blocks, entry by entry -/

/-- The activation block at point t: x at (1024·I + row, 512·K + column). -/
theorem xblk_apply (c : Dev nD) (t : Fin cfg0.N) (j : S1024x512.Idx) :
    xblk m c t j = at2 (xarr m c) (1024 * (t.val / 32) + (j 0).val) (512 * (t.val % 8) + (j 1).val) := by
  unfold xblk iblk
  rw [View.read_apply]
  show xarr m c (((cfg0.win 0).blk t).view.emb j) = _
  refine at2_of_val (xarr m c) _ _ _ ?_ ?_
  · show win0_0.index t 0 * 1024 + 1 * (j 0).val = 1024 * (t.val / 32) + (j 0).val
    rw [(x_index t).1]; omega
  · show win0_0.index t 1 * 512 + 1 * (j 1).val = 512 * (t.val % 8) + (j 1).val
    rw [(x_index t).2]; omega

/-- The weight block at point t: the reshaped weights at (512·K + row, 1024·J + column). -/
theorem wblk_apply (c : Dev nD) (t : Fin cfg0.N) (j : S512x1024.Idx) :
    wblk m c t j = at2 (warr m c) (512 * (t.val % 8) + (j 0).val) (1024 * (t.val / 8 % 4) + (j 1).val) := by
  unfold wblk iblk
  rw [View.read_apply]
  show warr m c (((cfg0.win 1).blk t).view.emb j) = _
  refine at2_of_val (warr m c) _ _ _ ?_ ?_
  · show win0_1.index t 0 * 512 + 1 * (j 0).val = 512 * (t.val % 8) + (j 0).val
    rw [(w_index t).1]; omega
  · show win0_1.index t 1 * 1024 + 1 * (j 1).val = 1024 * (t.val / 8 % 4) + (j 1).val
    rw [(w_index t).2]; omega

/-- The bias block at point t: the bias row at column 1024·J + column. -/
theorem bblk_apply (c : Dev nD) (t : Fin cfg0.N) (j : S1x1024.Idx) :
    bblk m c t j = at2 (barr m c) 0 (1024 * (t.val / 8 % 4) + (j 1).val) := by
  unfold bblk iblk
  rw [View.read_apply]
  show barr m c (((cfg0.win 2).blk t).view.emb j) = _
  refine at2_of_val (barr m c) _ _ _ ?_ ?_
  · show win0_2.index t 0 * 1 + 1 * (j 0).val = 0
    have h0 : (j 0).val < 1 := (j 0).isLt
    rw [(b_index t).1]; omega
  · show win0_2.index t 1 * 1024 + 1 * (j 1).val = 1024 * (t.val / 8 % 4) + (j 1).val
    rw [(b_index t).2]; omega

end Cert.KernelIdeal.Blocks

end
-- ==== Proof.Accum.lean ====
/-
  The accumulator after any grid point, entry by entry.

  Along a run of the reduction axis (points 8·r, …, 8·r + 7 of the grid) the accumulator is reset at the run's first
  point to "zero + that block's product" and at every later point gets that point's block product added. So after
  point t it holds, at entry (p, q), 0 + Σ_{s ≤ t % 8} (the block product of point 8·(t / 8) + s at (p, q)), where
  the block product of point n at (p, q) is Σ_{k < 512} x (1024·I + p, 512·K + k) · w (512·K + k, 1024·J + q) with
  (I, J, K) the coordinates of n. The fold over the run is the generated one; here each of its steps is read
  through the body's arithmetic and the blocks' positions in the arrays.
-/
import proofs.«165226_j40321152975111_1_alg».proof.Proof.Pieces
import proofs.«165226_j40321152975111_1_alg».proof.Proof.Payload
import proofs.«165226_j40321152975111_1_alg».proof.Proof.Blocks

noncomputable section

namespace Cert.KernelIdeal.Accum

open Cert.KernelIdeal Cert.KernelIdeal.Gen Idealize.ShloMosaic Idealize.ShloMosaic.TcCoe Idealize.SL.Sem
open Idealize.ShloMosaic.ValueIdx Cert.Dense Cert.KernelIdeal.Blocks

variable (m : (ℓ : Loc nD τ sig) → Buf (Elt Ideal) ℓ)

/-- The block product of grid point number n at entry i of the accumulator (n any natural; only n < 128 is used). -/
def blockTerm (c : Dev nD) (n : Nat) (i : S1024x1024.Idx) : EReal :=
  ∑ k : Fin 512, at2 (xarr m c) (1024 * (n / 32) + (i 0).val) (512 * (n % 8) + k.val)
    * at2 (warr m c) (512 * (n % 8) + k.val) (1024 * (n / 8 % 4) + (i 1).val)

/-- The update payload over point n's blocks adds point n's block product. -/
theorem update_blocks (c : Dev nD) (n : Nat) (hb : n < cfg0.N) (acc : Vec Ideal S1024x1024 .f32) (i : S1024x1024.Idx) :
    k0_pay2 (F := Ideal) (xblk m c (⟨n, hb⟩ : Fin cfg0.N)) (wblk m c (⟨n, hb⟩ : Fin cfg0.N)) acc i = acc i + blockTerm m c n i := by
  obtain ⟨p, q, rfl⟩ : ∃ (p q : Fin 1024), i = ix2 p q := ⟨i 0, i 1, eq_ix2 i⟩
  rw [Payload.update_apply]
  refine congrArg (acc (ix2 p q) + ·) (Finset.sum_congr rfl fun k _ => ?_)
  rw [xblk_apply, wblk_apply]

/-- At the first point of a run the accumulator is reset to zero plus that point's block product. -/
theorem reset_apply (c : Dev nD) (n : Nat) (hb : n < cfg0.N) (acc : Vec Ideal S1024x1024 .f32) (h0 : n % 8 = 0)
    (i : S1024x1024.Idx) : Value.scAt0_0 m c n hb acc i = 0 + blockTerm m c n i := by
  have h7 : ¬n % 8 = 7 := by omega
  have key : Value.scAt0_0 m c n hb acc = k0_pay2 (F := Ideal) (xblk m c (⟨n, hb⟩ : Fin cfg0.N)) (wblk m c (⟨n, hb⟩ : Fin cfg0.N)) (k0_pay1 (F := Ideal)) := by
    unfold Value.scAt0_0
    rw [dif_pos h0, dif_neg h7]
    exact Pieces.scratch_first (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) scM0_0 (Memref.isWhole_whole _)
      ((hcond0_0 (⟨n, hb⟩ : Fin cfg0.N)).mpr h0) (fun h => h7 ((hcond0_1 (⟨n, hb⟩ : Fin cfg0.N)).mp h))
      (iblk m c 0 (⟨n, hb⟩ : Fin cfg0.N)) (iblk m c 1 (⟨n, hb⟩ : Fin cfg0.N)) (iblk m c 2 (⟨n, hb⟩ : Fin cfg0.N))
  rw [key, update_blocks, Payload.zero_apply]

/-- At every other point the accumulator gets that point's block product added. -/
theorem step_apply (c : Dev nD) (n : Nat) (hb : n < cfg0.N) (acc : Vec Ideal S1024x1024 .f32) (h0 : ¬n % 8 = 0)
    (i : S1024x1024.Idx) : Value.scAt0_0 m c n hb acc i = acc i + blockTerm m c n i := by
  have key : Value.scAt0_0 m c n hb acc = k0_pay2 (F := Ideal) (xblk m c (⟨n, hb⟩ : Fin cfg0.N)) (wblk m c (⟨n, hb⟩ : Fin cfg0.N)) acc := by
    unfold Value.scAt0_0
    rw [dif_neg h0]
    by_cases h7 : n % 8 = 7
    · rw [dif_pos h7]
      exact Pieces.scratch_last (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) scM0_0 (Memref.isWhole_whole _)
        (fun h => h0 ((hcond0_0 (⟨n, hb⟩ : Fin cfg0.N)).mp h)) ((hcond0_1 (⟨n, hb⟩ : Fin cfg0.N)).mpr h7)
        (iblk m c 0 (⟨n, hb⟩ : Fin cfg0.N)) (iblk m c 1 (⟨n, hb⟩ : Fin cfg0.N)) (iblk m c 2 (⟨n, hb⟩ : Fin cfg0.N)) acc
    · rw [dif_neg h7]
      exact Pieces.scratch_middle (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) scM0_0 (Memref.isWhole_whole _)
        (fun h => h0 ((hcond0_0 (⟨n, hb⟩ : Fin cfg0.N)).mp h)) (fun h => h7 ((hcond0_1 (⟨n, hb⟩ : Fin cfg0.N)).mp h))
        (iblk m c 0 (⟨n, hb⟩ : Fin cfg0.N)) (iblk m c 1 (⟨n, hb⟩ : Fin cfg0.N)) (iblk m c 2 (⟨n, hb⟩ : Fin cfg0.N)) acc
  rw [key, update_blocks]

/-- The accumulator after point t: zero plus the block products of its run's points up to t. -/
theorem scratch_apply (c : Dev nD) (t : Fin cfg0.N) (i : S1024x1024.Idx) :
    (outsAt0 m c t.val t.isLt).2 i
      = 0 + ∑ s ∈ Finset.range (t.val % 8 + 1), blockTerm m c (8 * (t.val / 8) + s) i := by
  rw [Value.soutsAt0_0_eq m c t]
  exact Pipeline.accAt_add_apply (fun n h => Value.scAt0_0 m c n h (VS0_0.read (Elt Ideal) VS0_0.junk)) (Value.scAt0_0 m c)
    (fun _ => 0) (blockTerm m c) (8 * (t.val / 8)) 7
    (fun h i => reset_apply m c (8 * (t.val / 8)) h _ (Nat.mul_mod_right 8 _) i)
    (fun n h acc i hlt hle => step_apply m c n h acc (by omega) i)
    (t.val % 8) (by omega) _ i

end Cert.KernelIdeal.Accum

end
-- ==== Proof.LibSplitSum.lean ====
/-
  A sum over K·J consecutive naturals, taken as J consecutive runs of K.

  For any commutative additive monoid, Σ_{s < J} Σ_{k < K} g (K·s + k) = Σ_{n < K·J} g n: the runs
  [K·s, K·s + K) partition [0, K·J). Only associativity and commutativity of addition are used, so the law
  holds on the extended reals with no finiteness assumption.
-/
import Mathlib.Algebra.BigOperators.Fin

namespace Cert.SplitSum

open Finset

/-- J consecutive runs of length K make up the range below K·J. -/
theorem sum_runs_range {β : Type*} [AddCommMonoid β] (g : ℕ → β) (K : ℕ) :
    ∀ J : ℕ, ∑ s ∈ range J, ∑ k ∈ range K, g (K * s + k) = ∑ n ∈ range (K * J), g n
  | 0 => by simp
  | J + 1 => by
    rw [sum_range_succ, sum_runs_range g K J, Nat.mul_succ, sum_range_add]

/-- The same, with each run and the whole range indexed by `Fin`. -/
theorem sum_runs_fin {β : Type*} [AddCommMonoid β] (g : ℕ → β) (J K N : ℕ) (hN : K * J = N) :
    ∑ s ∈ range J, ∑ k : Fin K, g (K * s + k.val) = ∑ n : Fin N, g n.val := by
  subst hN
  rw [← Finset.sum_range (fun n => g n), ← sum_runs_range g K J]
  exact Finset.sum_congr rfl fun s _ => (Finset.sum_range (fun k => g (K * s + k))).symm

end Cert.SplitSum
-- ==== Proof.Final.lean ====
/-
  The output array after the run is the dense layer of the arguments.

  Only the last point of each run of the reduction axis (t % 8 = 7) writes its output block back. There the block
  holds the accumulator plus the bias row, and the accumulator holds zero plus the eight block products of the run;
  the eight runs of 512 columns of x (rows of w) make up all 4096, so the block's entry (p, q) is
  (Σ_{k < 4096} x (1024·I + p, k) · w (k, 1024·J + q)) + bias (0, 1024·J + q): the dense layer's entry at the place
  of the array the block covers. Every entry (r, c) of the output lies in the block of the point with I = r / 1024,
  J = c / 1024, K = 7, so the written-back blocks cover the array and it ends holding the dense layer. The weights
  the region reads are the rank-3 argument reshaped by the one host operation before the region.
-/
import proofs.«165226_j40321152975111_1_alg».proof.Proof.Accum
import proofs.«165226_j40321152975111_1_alg».proof.Proof.LibSplitSum
import Idealize.ShloMosaic.Lib.StableHlo.Run

noncomputable section

namespace Cert.KernelIdeal.Final

open Cert.KernelIdeal Cert.KernelIdeal.Gen Idealize.ShloMosaic Idealize.ShloMosaic.TcCoe Idealize.SL.Sem
open Idealize.ShloMosaic.ValueIdx Cert.Dense Cert.KernelIdeal.Blocks Cert.KernelIdeal.Accum
open Idealize.ShloMosaic.Pipeline (Dat)

variable (m : (ℓ : Loc nD τ sig) → Buf (Elt Ideal) ℓ) (ρ : Dev nD → PrngReg)

/-- The dense layer of the arrays as the region finds them. -/
abbrev result (c : Dev nD) : Vec Ideal S4096x4096 .f32 := dense (xarr m c) (warr m c) (barr m c)

/-- At the last point of a run the output block is the accumulator there plus the bias block's row. -/
theorem out_last (c : Dev nD) (t : Fin cfg0.N) (h7 : t.val % 8 = 7) :
    (outsAt0 m c t.val t.isLt).1 = k0_pay3 (F := Ideal) ((outsAt0 m c t.val t.isLt).2) (bblk m c t) := by
  have h0 : ¬t.val % 8 = 0 := by omega
  rw [outsAt0_C m c t h0 h7]
  dsimp only
  exact (Pieces.output_last (F := Ideal) c (grid0.coords t) (ms0_0 t) (hs0_0 t) (ms0_1 t) (hs0_1 t) (ms0_2 t) (hs0_2 t) (ms0_3 t) (hs0_3 t) scM0_0 (Memref.isWhole_whole _)
      (fun h => h0 ((hcond0_0 t).mp h)) ((hcond0_1 t).mpr h7) (iblk m c 0 t) (iblk m c 1 t) (iblk m c 2 t)
      (outsAt0 m c (t.val - 1) (Nat.lt_of_le_of_lt (Nat.sub_le _ _) t.isLt)).2).trans
    (congrArg (fun a => k0_pay3 (F := Ideal) a (bblk m c t))
      (Pieces.scratch_last (F := Ideal) c (grid0.coords t) (ms0_0 t) (hs0_0 t) (ms0_1 t) (hs0_1 t) (ms0_2 t) (hs0_2 t) (ms0_3 t) (hs0_3 t) scM0_0 (Memref.isWhole_whole _)
        (fun h => h0 ((hcond0_0 t).mp h)) ((hcond0_1 t).mpr h7) (iblk m c 0 t) (iblk m c 1 t) (iblk m c 2 t)
        (outsAt0 m c (t.val - 1) (Nat.lt_of_le_of_lt (Nat.sub_le _ _) t.isLt)).2).symm)

/-- The eight block products of t's run, at (p, q), are the whole contraction over 4096. -/
theorem run_sum (c : Dev nD) (t : Fin cfg0.N) (p q : Fin 1024) :
    ∑ s ∈ Finset.range 8, blockTerm m c (8 * (t.val / 8) + s) (ix2 p q)
      = ∑ k : Fin 4096, at2 (xarr m c) (1024 * (t.val / 32) + p.val) k.val * at2 (warr m c) k.val (1024 * (t.val / 8 % 4) + q.val) := by
  refine Eq.trans (Finset.sum_congr rfl fun s hs => ?_)
    (SplitSum.sum_runs_fin (fun n => at2 (xarr m c) (1024 * (t.val / 32) + p.val) n * at2 (warr m c) n (1024 * (t.val / 8 % 4) + q.val)) 8 512 4096 rfl)
  have hs8 : s < 8 := Finset.mem_range.mp hs
  have e1 : (8 * (t.val / 8) + s) / 32 = t.val / 32 := by omega
  have e2 : (8 * (t.val / 8) + s) % 8 = s := by omega
  have e3 : (8 * (t.val / 8) + s) / 8 % 4 = t.val / 8 % 4 := by omega
  unfold blockTerm
  rw [e1, e2, e3]

/-- Where the output block of point t sits in the array. -/
theorem out_row (t : Fin cfg0.N) (j : S1024x1024.Idx) :
    ((((cfg0.win 3).blk t).view.emb j) 0).val = 1024 * (t.val / 32) + (j 0).val := by
  show win0_3.index t 0 * 1024 + 1 * (j 0).val = _
  rw [(o_index t).1]; omega

theorem out_col (t : Fin cfg0.N) (j : S1024x1024.Idx) :
    ((((cfg0.win 3).blk t).view.emb j) 1).val = 1024 * (t.val / 8 % 4) + (j 1).val := by
  show win0_3.index t 1 * 1024 + 1 * (j 1).val = _
  rw [(o_index t).2]; omega

/-- At the last point of a run, the output block's entry is the dense layer's entry at its place in the array. -/
theorem out_entry (c : Dev nD) (t : Fin cfg0.N) (h7 : t.val % 8 = 7) (j : S1024x1024.Idx) :
    (outsAt0 m c t.val t.isLt).1 j = result m c (((cfg0.win 3).blk t).view.emb j) := by
  have e7 : t.val % 8 + 1 = 8 := by omega
  show _ = dense (xarr m c) (warr m c) (barr m c) (((cfg0.win 3).blk t).view.emb j)
  rw [dense_apply_at2, out_row, out_col]
  obtain ⟨p, q, rfl⟩ : ∃ (p q : Fin 1024), j = ix2 p q := ⟨j 0, j 1, eq_ix2 j⟩
  rw [out_last m c t h7, Payload.bias_apply, scratch_apply, bblk_apply, e7, run_sum, zero_add]

/-- What a flushing point writes back is its block of the dense layer. -/
theorem flushed_eq (c : Dev nD) (t : Fin cfg0.N) (hf : (cfg0.win 3).flush t = true) :
    (dats m 0 c).flushed 3 t = ((cfg0.win 3).blk t).view.read (Elt Ideal) (result m c) := by
  have h7 : t.val % 8 = 7 := (flush0_3 t).mp hf
  rw [Value.flushed3]
  funext j
  exact out_entry m c t h7 j

/-- An entry of the output is in point t's block iff each coordinate is in the block's range on its axis. -/
theorem mem_block (t : Fin cfg0.N) (i : S4096x4096.Idx) :
    i ∈ ((cfg0.win 3).blk t).view.set ↔ ∀ a : Fin 2, win0_3.index t a * S1024x1024.size a ≤ (i a).val
      ∧ (i a).val < win0_3.index t a * S1024x1024.size a + S1024x1024.size a := by
  show i ∈ ((View.whole main_v1).slice (win0_3.rect t)).set ↔ _
  rw [View.set_slice_whole, Rect.mem_set_unit]
  exact Iff.rfl

/-- Every entry of the output is in the block some flushing point writes back. -/
theorem covered (i : S4096x4096.Idx) :
    ∃ t : Fin cfg0.N, (cfg0.win 3).flush t = true ∧ i ∈ ((cfg0.win 3).blk t).view.set := by
  have h0 : (i 0).val < 4096 := (i 0).isLt
  have h1 : (i 1).val < 4096 := (i 1).isLt
  have hN : 32 * ((i 0).val / 1024) + 8 * ((i 1).val / 1024) + 7 < cfg0.N :=
    lt_of_lt_of_eq (by omega : 32 * ((i 0).val / 1024) + 8 * ((i 1).val / 1024) + 7 < 128) N_0.symm
  refine ⟨⟨32 * ((i 0).val / 1024) + 8 * ((i 1).val / 1024) + 7, hN⟩, (flush0_3 _).mpr (by
    show (32 * ((i 0).val / 1024) + 8 * ((i 1).val / 1024) + 7) % 8 = 7; omega), ?_⟩
  rw [mem_block]
  obtain ⟨e0, e1⟩ := o_index ⟨32 * ((i 0).val / 1024) + 8 * ((i 1).val / 1024) + 7, hN⟩
  intro a
  match a with
  | ⟨0, _⟩ =>
    show win0_3.index _ (0 : Fin 2) * 1024 ≤ (i 0).val ∧ (i 0).val < win0_3.index _ (0 : Fin 2) * 1024 + 1024
    rw [e0]
    show (32 * ((i 0).val / 1024) + 8 * ((i 1).val / 1024) + 7) / 32 * 1024 ≤ (i 0).val
      ∧ (i 0).val < (32 * ((i 0).val / 1024) + 8 * ((i 1).val / 1024) + 7) / 32 * 1024 + 1024
    omega
  | ⟨1, _⟩ =>
    show win0_3.index _ (1 : Fin 2) * 1024 ≤ (i 1).val ∧ (i 1).val < win0_3.index _ (1 : Fin 2) * 1024 + 1024
    rw [e1]
    show (32 * ((i 0).val / 1024) + 8 * ((i 1).val / 1024) + 7) / 8 % 4 * 1024 ≤ (i 1).val
      ∧ (i 1).val < (32 * ((i 0).val / 1024) + 8 * ((i 1).val / 1024) + 7) / 8 % 4 * 1024 + 1024
    omega

/-- The output array after the run. -/
theorem final (c : Dev nD) : (dats m 0 c).arrAt 3 cfg0.N = result m c :=
  (dats m 0 c).arrAt_eq_of_cover 3 (result m c) (fun t hf => flushed_eq m c t hf) covered

/-- The weights the region reads: the rank-3 argument, reshaped. -/
theorem warr_eq (c : Dev nD) :
    warr m c = shapeCast S4096x4096 (m ((c : Thread nD τ).loc main_arg1)) shapeCasts_S1x4096x4096_S4096x4096 := by
  show (V m c main_v0 : S4096x4096.Idx → EReal) = _
  dsimp only [V, hostOps0]
  after_results
  rfl

/-- The dense layer of the arrays the region finds is the dense layer of the arguments as launched. -/
theorem result_eq (c : Dev nD) :
    result m c = dense (m ((c : Thread nD τ).loc main_arg0))
      (shapeCast S4096x4096 (m ((c : Thread nD τ).loc main_arg1)) shapeCasts_S1x4096x4096_S4096x4096)
      (m ((c : Thread nD τ).loc main_arg2)) := by
  show dense (xarr m c) (warr m c) (barr m c) = _
  rw [warr_eq]
  show dense (V m c main_arg0) _ (V m c main_arg2) = _
  rw [V_main_arg0, V_main_arg2]

/-- Every weakly fair execution of the kernel program ends with the output array at the dense layer of the
    arguments and the arguments unchanged. -/
theorem run : θ_run defs (onTc (τ := τ) (main (F := Ideal))) ⟨m, fun _ => 0, ρ⟩ fun r => ∀ c : Dev nD,
      r.2.mem ((c : Thread nD τ).loc main_v1) = dense (m ((c : Thread nD τ).loc main_arg0))
          (shapeCast S4096x4096 (m ((c : Thread nD τ).loc main_arg1)) shapeCasts_S1x4096x4096_S4096x4096)
          (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans ((final m c).trans (result_eq m c)), (h c).2⟩)
    (Value.run_blocks m ρ)

end Cert.KernelIdeal.Final

end
-- ==== Proof.RefDense.lean ====
/-
  The reference computes the dense layer.

  Its four host operations are: reshape the rank-3 weights to a matrix; contract x's columns with that matrix's rows;
  repeat the bias row down 4096 rows; add. Read at entry (r, c) on the extended reals that is
  (Σ_{k < 4096} x (r, k) · w (k, c)) + bias (0, c), the function `dense` of x, the reshaped weights and the bias.
-/
import proofs.«165226_j40321152975111_1_alg».proof.Proof.Gen.ReferenceIdeal.Read
import proofs.«165226_j40321152975111_1_alg».proof.Proof.Spec

noncomputable section

namespace Cert.ReferenceIdeal.RefValue

open Cert.ReferenceIdeal Cert.ReferenceIdeal.Gen Cert.ReferenceIdeal.Read Idealize.ShloMosaic Idealize.ShloMosaic.ValueIdx Cert.Dense

/-- The reference's result, as a function of its three arguments, is the dense layer. -/
theorem result_eq (x0 : (⟨S4096x4096, .f32⟩ : BufTy).Contents (Elt Ideal)) (x1 : (⟨S1x4096x4096, .f32⟩ : BufTy).Contents (Elt Ideal))
    (x2 : (⟨S1x4096, .f32⟩ : BufTy).Contents (Elt Ideal)) :
    val_main_v3 (F := Ideal) x0 x1 x2 = dense x0 (shapeCast S4096x4096 x1 shapeCasts_S1x4096x4096_S4096x4096) x2 := by
  funext i
  have el : ∀ k : Fin 4096, lidx_main_v1 i k = ix2 (i 0) k := fun k => funext fun a => Fin.ext (by
    match a with
    | ⟨0, _⟩ => rfl
    | ⟨1, _⟩ => rfl)
  have er : ∀ k : Fin 4096, ridx_main_v1 i k = ix2 k (i 1) := fun k => funext fun a => Fin.ext (by
    match a with
    | ⟨0, _⟩ => rfl
    | ⟨1, _⟩ => rfl)
  have eb : idx_main_v2 i = ix2 (0 : Fin 1) (i 1) := funext fun a => Fin.ext (by
    match a with
    | ⟨0, _⟩ => rfl
    | ⟨1, _⟩ => rfl)
  rw [val_main_v3_apply, val_main_v1_apply, val_main_v2_apply]
  simp only [el, er, eb]
  rfl

end Cert.ReferenceIdeal.RefValue

end
-- ==== Proof.lean ====
/-
  A tiled dense layer against the plain one.

  The kernel computes out = x · w + bias for x [4096, 4096], w [4096, 4096] (the rank-3 weights with their unit axis
  dropped) and a bias row [1, 4096], over a 4 × 4 × 8 grid: an output block [1024, 1024] is accumulated over eight
  blocks of 512 along the contracted axis (zeroed at the first, each block's product of the bf16-narrowed x- and
  w-blocks added in f32), and at the eighth the bias row is added and the block is written back. The reference
  contracts all 4096 at once and adds the bias row repeated down the rows.

  On the extended reals a change of float format is the identity and a matrix product is a plain sum of products, so
  the kernel's entry (r, c) is (0 + Σ_{s < 8} Σ_{k < 512} x (r, 512·s + k) · w (512·s + k, c)) + bias (0, c) and the
  reference's is (Σ_{k < 4096} x (r, k) · w (k, c)) + bias (0, c). They agree because a sum over 4096 consecutive
  indices is the sum of its eight runs of 512: only associativity and commutativity of addition, which hold on the
  extended reals without any finiteness, so the precondition is never opened. The kernel has no sanctioned rewrite
  to account for (the idealization changed no operation), and each program's frame is its run with the value dropped.
-/
import proofs.«165226_j40321152975111_1_alg».proof.Defs
import proofs.«165226_j40321152975111_1_alg».proof.Proof.Gen.Kernel
import proofs.«165226_j40321152975111_1_alg».proof.Proof.Gen.Kernel.Skeleton
import proofs.«165226_j40321152975111_1_alg».proof.Proof.Gen.Kernel.Launch
import proofs.«165226_j40321152975111_1_alg».proof.Proof.Gen.Kernel.Points
import proofs.«165226_j40321152975111_1_alg».proof.Proof.Gen.Kernel.Frame
import proofs.«165226_j40321152975111_1_alg».proof.Proof.Gen.KernelIdeal
import proofs.«165226_j40321152975111_1_alg».proof.Proof.Gen.KernelIdeal.Skeleton
import proofs.«165226_j40321152975111_1_alg».proof.Proof.Gen.KernelIdeal.Launch
import proofs.«165226_j40321152975111_1_alg».proof.Proof.Gen.KernelIdeal.Points
import proofs.«165226_j40321152975111_1_alg».proof.Proof.Gen.KernelIdeal.Frame
import proofs.«165226_j40321152975111_1_alg».proof.Proof.Gen.ReferenceIdeal
import proofs.«165226_j40321152975111_1_alg».proof.Proof.Gen.KernelIdeal.Value
import proofs.«165226_j40321152975111_1_alg».proof.Proof.Gen.ReferenceIdeal.Run
import proofs.«165226_j40321152975111_1_alg».proof.Proof.Gen.ReferenceIdeal.Read
import proofs.«165226_j40321152975111_1_alg».proof.Proof.Gen.Pre_finite_inputs
import Idealize.ShloMosaic.Adequacy
import Idealize.ShloMosaic.Init

import proofs.«165226_j40321152975111_1_alg».proof.Proof.Final
import proofs.«165226_j40321152975111_1_alg».proof.Proof.RefDense

noncomputable section

namespace Cert.Proof

open Idealize.ShloMosaic Idealize.ShloMosaic.TcCoe Idealize.SL.Sem

/-- The three programs run, fault-free, with their arguments unchanged. -/
theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both programs end with the output at the dense layer of the (agreeing) arguments. -/
theorem algebraic : Cert.algebraic_KernelIdeal_ReferenceIdeal := by
  intro m ρ m' ρ' _ hagree
  refine ⟨_, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v3_eq, Cert.ReferenceIdeal.RefValue.result_eq,
    (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
